-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S128x128 .f32) (main_arg4 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 7
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S10000x128, .f32⟩
  | .hbm, ⟨6, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S400x128, .f32⟩
  | .local _ .vmem, ⟨7, _⟩ => ⟨S400x128, .f32⟩
  | .local _ .vmem, ⟨8, _⟩ => ⟨S400x128, .f32⟩
  | .local _ .vmem, ⟨9, _⟩ => ⟨S400x128, .f32⟩
  | .local _ .vmem, ⟨10, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 25], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c400_i32 : BitVec 32 := 400#32
  let v13 : BitVec 32 := Scalar.muli arg1 c400_i32
  let v14 : Index := Scalar.indexCast v13
  let c0_9 : Index := 0#32
  ![v14.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  h_S400x128 : 0 < S400x128.numel
  shapeCasts_S400x128_S400x128 : S400x128.ShapeCasts S400x128
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  k0_off1_inb : ∀ i : grid0.Coords, ∀ (k0_h1 : k0_cond1 i = 1#1), ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S400x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S10000x128, .f32⟩
  | .hbm, ⟨6, _⟩ => ⟨S128x128, .f32⟩
  | .hbm, ⟨7, _⟩ => ⟨S10000x128, .f32⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S128x128, .f32⟩
  | .hbm, ⟨13, _⟩ => ⟨S10000x128, .f32⟩
  | .hbm, ⟨14, _⟩ => ⟨S10000x128, .f32⟩
  | .hbm, ⟨15, _⟩ => ⟨S128x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S128x128, .f32⟩
  | .hbm, ⟨22, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call1_cst : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  transposes_S128x128_S128x128_1_0 : S128x128.Transposes [1, 0] S128x128
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.FrameIdeal.Schedule.lean ====
/-
  The grid of the fused call has 50 points in row-major order: points 0..24 are the first sweep over the 25 row
  blocks of the adjacency matrix (the hidden layer is computed, 400 rows per point, into the carried buffer), points
  25..49 the second sweep (both heads are computed from the whole hidden layer). Here the printed scalar chains are
  decided once over those 50 points: which branch a point takes, where the first sweep stores, where the two result
  windows are idle and where they are written back.
-/
import proofs.«142056_g85864986181826_cont_sun_m_356_3_alg».proof.Proof.Gen.KernelIdeal.Launch
import proofs.«142056_g85864986181826_cont_sun_m_356_3_alg».proof.Proof.Gen.KernelIdeal.Points

set_option maxRecDepth 16384

noncomputable section

namespace Cert.KernelIdeal.Hand

open Cert.KernelIdeal Cert.KernelIdeal.Gen Idealize.ShloMosaic Idealize.ShloMosaic.TcCoe

/-- The first branch (the hidden layer's rows) is taken exactly at the first sweep's points. -/
theorem sweep1_iff : ∀ t : Fin cfg0.N, k0_cond1 (grid0.coords t) = 1#1 ↔ t.val < 25 :=
  (by decide +kernel : ∀ t : Fin grid0.N, k0_cond1 (grid0.coords t) = 1#1 ↔ t.val < 25)

/-- The second branch (the two heads) is taken exactly at the second sweep's points. -/
theorem sweep2_iff : ∀ t : Fin cfg0.N, k0_cond2 (grid0.coords t) = 1#1 ↔ 25 ≤ t.val :=
  (by decide +kernel : ∀ t : Fin grid0.N, k0_cond2 (grid0.coords t) = 1#1 ↔ 25 ≤ t.val)

/-- At point `t` of the first sweep the store into the carried buffer begins at row `400 t`, column 0. -/
theorem fill_off : ∀ t : Fin cfg0.N, t.val < 25 → k0_off1 (grid0.coords t) = ![400 * t.val, 0] :=
  (by decide +kernel : ∀ t : Fin grid0.N, t.val < 25 → k0_off1 (grid0.coords t) = ![400 * t.val, 0])

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-- The two result windows are idle exactly at the first sweep's points, -/
theorem idle5_iff : ∀ t : Fin cfg0.N, cfg0.idle 5 (grid0.coords t) = true ↔ t.val < 25 :=
  (by decide +kernel : ∀ t : Fin grid0.N, cfg0.idle 5 (grid0.coords t) = true ↔ t.val < 25)
theorem idle6_iff : ∀ t : Fin cfg0.N, cfg0.idle 6 (grid0.coords t) = true ↔ t.val < 25 :=
  (by decide +kernel : ∀ t : Fin grid0.N, cfg0.idle 6 (grid0.coords t) = true ↔ t.val < 25)

/-- and written back exactly at the second sweep's points. -/
theorem flush5_iff : ∀ t : Fin cfg0.N, (cfg0.win 5).flush t = true ↔ 25 ≤ t.val :=
  (by decide +kernel : ∀ t : Fin grid0.N, win0_5.flush t = true ↔ 25 ≤ t.val)
theorem flush6_iff : ∀ t : Fin cfg0.N, (cfg0.win 6).flush t = true ↔ 25 ≤ t.val :=
  (by decide +kernel : ∀ t : Fin grid0.N, win0_6.flush t = true ↔ 25 ≤ t.val)

/-- The block index of each window at a point: the adjacency's row block is the point's position within its sweep,
    the other inputs have one block, a result window's block at a second-sweep point is the point's position. -/
theorem index0 : ∀ t : Fin cfg0.N, win0_0.index t (0 : Fin 2) = t.val % 25 ∧ win0_0.index t (1 : Fin 2) = 0 :=
  (by decide +kernel : ∀ t : Fin grid0.N, win0_0.index t (0 : Fin 2) = t.val % 25 ∧ win0_0.index t (1 : Fin 2) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index5 : ∀ t : Fin cfg0.N, 25 ≤ t.val → win0_5.index t (0 : Fin 2) = t.val - 25 ∧ win0_5.index t (1 : Fin 2) = 0 :=
  (by decide +kernel : ∀ t : Fin grid0.N, 25 ≤ t.val → win0_5.index t (0 : Fin 2) = t.val - 25 ∧ win0_5.index t (1 : Fin 2) = 0)
theorem index6 : ∀ t : Fin cfg0.N, 25 ≤ t.val → win0_6.index t (0 : Fin 2) = t.val - 25 ∧ win0_6.index t (1 : Fin 2) = 0 :=
  (by decide +kernel : ∀ t : Fin grid0.N, 25 ≤ t.val → win0_6.index t (0 : Fin 2) = t.val - 25 ∧ win0_6.index t (1 : Fin 2) = 0)

end Cert.KernelIdeal.Hand

end
-- ==== Proof.FrameIdeal.Carry.lean ====
/-
  What the fused call carries between grid points: the hidden layer `h = relu((A x) W0ᵀ)`, assembled 400 rows per
  point during the first sweep in a buffer of the kernel's own. Row `r` of it is computed at point `r / 400` from
  that point's row block of `A`, and is row `r % 400` of what that point stores. Before point `n` of the first
  sweep the buffer holds the hidden layer on the rows below `400 n` and, above them, whatever it held when the call
  began; from point 25 on it holds the hidden layer and nothing else, so that what the second sweep computes from it
  does not depend on what the buffer held at the start.
-/
import proofs.«142056_g85864986181826_cont_sun_m_356_3_alg».proof.Proof.FrameIdeal.Schedule
import proofs.«142056_g85864986181826_cont_sun_m_356_3_alg».proof.Proof.Gen.KernelIdeal.Skeleton
import proofs.«142056_g85864986181826_cont_sun_m_356_3_alg».proof.Proof.Gen.KernelIdeal.Frame
import Idealize.ShloMosaic.Lib.ValueIdx
import Idealize.ShloMosaic.Lib.WritesUnit

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ)

/-- The first-sweep point that computes row `r` of the hidden layer. -/
def fillPoint (r : ℕ) (hr : r < 10000) : Fin cfg0.N := ⟨r / 400, by show r / 400 < grid0.N; rw [N_0]; omega⟩

/-- The 400 rows of the hidden layer that first-sweep point `t` stores: the product of its row block of `A` with
    `x`, then with `W0` transposed, clamped below at zero. -/
abbrev rowsAt (c : Dev nD) (t : Fin cfg0.N) : FVec F S400x128 .f32 :=
  k0_pay1 (iblk m c 0 t) (iblk m c 1 t) (iblk m c 2 t)

/-- The hidden layer, row by row. -/
def hidden (c : Dev nD) : Vec F S10000x128 .f32 := fun j =>
  rowsAt m c (fillPoint (j 0).val (idx2_lt0 j)) (ix2 (⟨(j 0).val % 400, Nat.mod_lt _ (by decide)⟩ : Fin 400) (⟨(j 1).val, idx2_lt1 j⟩ : Fin 128))

/-- The carried buffer before point `n` of the first sweep, over entry contents `d0`. -/
def mix (c : Dev nD) (n : ℕ) (d0 : Vec F S10000x128 .f32) : Vec F S10000x128 .f32 := fun j =>
  if (j 0).val < 400 * n then hidden m c j else d0 j

/-- Before the first point nothing is computed yet. -/
theorem mix_zero (c : Dev nD) (d0 : Vec F S10000x128 .f32) : mix m c 0 d0 = d0 := by
  funext j; unfold mix; rw [if_neg (by omega)]

/-- After the first sweep the buffer is the hidden layer, whatever it held before. -/
theorem mix_full (c : Dev nD) (n : ℕ) (hn : 25 ≤ n) (d0 : Vec F S10000x128 .f32) : mix m c n d0 = hidden m c := by
  funext j; unfold mix; rw [if_pos (by have := idx2_lt0 j; omega)]

/-- The kernel's own buffer, as the body is handed it. -/
abbrev carryRef : Memref sig .tc .vmem S10000x128 .f32 := Memref.whole cc0_scratch0

/-- The invariant between points: the carried buffer at `mix` of the points so far over SOME entry contents, and the
    core's generator register at some state. -/
def carried (c : Dev nD) (n : ℕ) : sProp 𝕄 :=
  iprop((∃ d0, owns (c : Thread nD τ) carryRef fullShare (mix m c (min n 25) d0)) ∗ (∃ r, prngReg c r))

/-- Storing point `t`'s rows at rows `[400 t, 400 t + 400)` over the buffer before point `t` gives the buffer
    before point `t + 1`: inside the slice the row's point is `t` and its position the row modulo 400; below the
    slice both are the hidden layer, above it both the entry contents. -/
theorem mix_step (c : Dev nD) (t : Fin cfg0.N) (ht : t.val < 25) (d0 : Vec F S10000x128 .f32)
    (v : View sig .tc .vmem S10000x128 .f32) (f : v.ty.Contents (Elt F)) (hf : v.read (Elt F) f = mix m c t.val d0)
    {off : Fin 2 → ℕ} (hoff : off = ![400 * t.val, 0]) (inb : ∀ a, off a + S400x128.size a ≤ S10000x128.size a) :
    v.read (Elt F) (v.writes (Elt F) f [(⟨Rect.unit (s := S10000x128) off S400x128.size inb, rowsAt m c t⟩ : View.Piece (Elt F) S10000x128 .f32)])
      = mix m c (t.val + 1) d0 := by
  funext y
  by_cases h : 400 * t.val ≤ (y 0).val ∧ (y 0).val < 400 * t.val + 400
  · rw [View.read_writes_cons_rows_of_mem v f inb (rowsAt m c t) [] y
      (ix2 (⟨(y 0).val % 400, Nat.mod_lt _ (by decide)⟩ : Fin 400) (⟨(y 1).val, idx2_lt1 y⟩ : Fin 128)) hoff
      (by show (y 0).val = 400 * t.val + (y 0).val % 400; omega) rfl]
    unfold mix; rw [if_pos (by omega)]
    unfold hidden
    have ep : fillPoint (y 0).val (idx2_lt0 y) = t := Fin.ext (by unfold fillPoint; show (y 0).val / 400 = t.val; omega)
    rw [ep]
  · rw [View.read_writes_cons_rows_of_not_mem (W := 400) v f inb (rowsAt m c t) [] y hoff (show S400x128.size (0 : Fin 2) = 400 from rfl) (by omega),
      View.writes_nil, hf]
    unfold mix
    by_cases h1 : (y 0).val < 400 * t.val
    · rw [if_pos h1, if_pos (by omega)]
    · rw [if_neg h1, if_neg (by omega)]

end Cert.KernelIdeal.Hand

end
-- ==== Proof.FrameIdeal.Data.lean ====
/-
  The pipeline's proof data on one core. Each input window's staging buffer holds that window's block of its argument
  array at every point. A result window's buffer holds, after a second-sweep point, that point's 400 rows of the head:
  the point's row block of `A` times the hidden layer, times the head's weights transposed. (At a first-sweep point
  the result windows are idle and not written back, and what is named for them there is never read.) Between points
  the kernel's own buffer is carried as `Carry` says.
-/
import proofs.«142056_g85864986181826_cont_sun_m_356_3_alg».proof.Proof.FrameIdeal.Carry

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The 400 rows of the first head (weights `W1`) that second-sweep point `t` leaves in result window 5. -/
abbrev head1At (c : Dev nD) (t : Fin cfg0.N) : FVec F S400x128 .f32 := k0_pay3 (iblk m c 0 t) (hidden m c) (iblk m c 3 t)
/-- The 400 rows of the second head (weights `Wss`) that second-sweep point `t` leaves in result window 6. -/
abbrev head2At (c : Dev nD) (t : Fin cfg0.N) : FVec F S400x128 .f32 := k0_pay4 (iblk m c 0 t) (hidden m c) (iblk m c 4 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => head1At m c t
    | ⟨6, _⟩ => head2At m c t
  Φ t := carried m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = head1At m c t := by dsimp only [dats]
theorem after6 (c : Dev nD) (t : Fin cfg0.N) : (dats m 0 c).after 6 t = head2At m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

end Cert.KernelIdeal.Hand

end
-- ==== Proof.FrameIdeal.Loads.lean ====
/-
  Two readings of a whole staging buffer used by both runs of the body: loading all of a buffer that holds `x` gives
  `x`, and one store of a whole 400 x 128 block reads back as the stored block, whatever the buffer held.
-/
import proofs.«142056_g85864986181826_cont_sun_m_356_3_alg».proof.Proof.Gen.KernelIdeal.Skeleton
import Idealize.ShloMosaic.Lib.Pipeline.FrameBody
import Idealize.ShloMosaic.Lib.Pipeline.Value
import Idealize.ShloMosaic.Lib.WritesUnit

set_option maxRecDepth 16384

noncomputable section

namespace Cert.KernelIdeal.Hand

open Cert.KernelIdeal Cert.KernelIdeal.Gen Idealize.ShloMosaic Idealize.ShloMosaic.TcCoe

variable {F : FTy → Type} [FloatOps F]

/-- The zero offsets of a rank-2 rectangle. -/
theorem off00 : (![0, 0] : Fin 2 → ℕ) = fun _ => 0 := by
  funext a; match a with | ⟨0, _⟩ => rfl | ⟨1, _⟩ => rfl

/-- A load of the whole of a whole buffer holding `x` is `x`. -/
theorem load_whole {S : Shape} {e : EltTy} (hS : S.rank = 2) {off : Fin S.rank → ℕ} (hoff : off = fun _ => 0)
    (arg : Memref sig .tc .vmem S e) (harg : arg.IsWhole) (inb : ∀ a, off a + S.size a ≤ S.size a) (x : S.Idx → Elt F e) :
    View.readAt (Elt F) arg.view (Rect.unit (s := S) off S.size inb).toLoadRect (harg.unread x) = x := by
  rw [View.readAt_eq_ld, harg.read_unread, View.ld_unit_zero (S := S) hoff]

/-- One store of a whole 400 x 128 block reads back as what was stored. -/
theorem store_whole (v : View sig .tc .vmem S400x128 .f32) (f : v.ty.Contents (Elt F)) (inb : ∀ a, (![0, 0] : Fin 2 → ℕ) a + S400x128.size a ≤ S400x128.size a)
    (w : (Rect.unit (s := S400x128) ![0, 0] S400x128.size inb).shape.Idx → Elt F .f32) :
    v.read (Elt F) (v.writes (Elt F) f [(⟨Rect.unit (s := S400x128) ![0, 0] S400x128.size inb, w⟩ : View.Piece (Elt F) S400x128 .f32)]) = w := by
  funext y
  exact View.read_writes_cons_rows_of_mem (o := 0) v f inb w [] y y rfl (Nat.zero_add _).symm rfl

end Cert.KernelIdeal.Hand

end
-- ==== Proof.FrameIdeal.RunFill.lean ====
/-
  The body at a point of the first sweep. Only the first branch is taken: the point's row block of `A`, `x` and `W0`
  are loaded whole, the 400 rows `relu((A_blk x) W0ᵀ)` are stored into the carried buffer at the rows the point's
  coordinate names, and nothing else is written: the inputs, and the two result buffers (idle here), are handed back as
  they were found, the carried buffer with that one slice written over what it held.
-/
import proofs.«142056_g85864986181826_cont_sun_m_356_3_alg».proof.Proof.FrameIdeal.Loads
import Idealize.ShloMosaic.Lib.Ring
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runFill (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S400x128 .f32) (harg7 : arg7.IsWhole) (arg8 : Memref sig .tc .vmem S400x128 .f32) (harg8 : arg8.IsWhole) (arg9 : Memref sig .tc .vmem S10000x128 .f32) (harg9 : arg9.IsWhole) (hc0 : k0_cond1 i = 1#1) (hc1 : ¬ k0_cond2 i = 1#1)
    (x0 : Vec F S400x10000 .f32) (x1 : Vec F S10000x128 .f32) (x2 x3 x4 : Vec F S128x128 .f32)
    (xi5 xi6 : Vec F S400x128 .f32) (xs0 : Vec F S10000x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6
                ∗ (arg9.view.loc (c : Thread nD τ) ↦[arg9.view.set]{fullShare} arg9.view.writes (Elt F) (harg9.unread xs0)
                    [(⟨Rect.unit (s := S10000x128) (k0_off1 i) S400x128.size (k0_off1_inb i hc0), k0_pay1 x0 x1 x2⟩ : View.Piece (Elt F) S10000x128 .f32)])) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K := by
    intro E K
    have e0 := load_whole (F := F) (S := S400x10000) rfl off00 arg2 harg2 inb_S400x10000_S400x10000_0_0 x0
    have e1 := load_whole (F := F) (S := S10000x128) rfl off00 arg3 harg3 inb_S10000x128_S10000x128_0_0 x1
    have e2 := load_whole (F := F) (S := S128x128) rfl off00 arg4 harg4 inb_S128x128_S128x128_0_0 x2
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexact HS0

end Cert.KernelIdeal.Hand

end
-- ==== Proof.FrameIdeal.RunHeads.lean ====
/-
  The body at a point of the second sweep. Only the second branch is taken: the point's row block of `A` and the whole
  carried buffer `h` are loaded, their product is formed once, and its products with `W1` transposed and with `Wss`
  transposed are stored, each as one whole block, into the two result buffers, whatever those held. The inputs and the
  carried buffer are handed back as they were found.
-/
import proofs.«142056_g85864986181826_cont_sun_m_356_3_alg».proof.Proof.FrameIdeal.Loads
import Idealize.ShloMosaic.Lib.Ring
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runHeads (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S400x128 .f32) (harg7 : arg7.IsWhole) (arg8 : Memref sig .tc .vmem S400x128 .f32) (harg8 : arg8.IsWhole) (arg9 : Memref sig .tc .vmem S10000x128 .f32) (harg9 : arg9.IsWhole) (hc0 : ¬ k0_cond1 i = 1#1) (hc1 : k0_cond2 i = 1#1)
    (x0 : Vec F S400x10000 .f32) (x1 : Vec F S10000x128 .f32) (x2 x3 x4 : Vec F S128x128 .f32)
    (xs0 : Vec F S10000x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x0 xs0 x3) ∗ owns (c : Thread nD τ) arg8 fullShare (k0_pay4 x0 xs0 x4) ∗ owns (c : Thread nD τ) arg9 fullShare xs0) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K := by
    intro E K
    have e0 := load_whole (F := F) (S := S400x10000) rfl off00 arg2 harg2 inb_S400x10000_S400x10000_0_0 x0
    have es := load_whole (F := F) (S := S10000x128) rfl off00 arg9 harg9 inb_S10000x128_S10000x128_0_0 xs0
    have e3 := load_whole (F := F) (S := S128x128) rfl off00 arg5 harg5 inb_S128x128_S128x128_0_0 x3
    have e4 := load_whole (F := F) (S := S128x128) rfl off00 arg6 harg6 inb_S128x128_S128x128_0_0 x4
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro; exact store_whole (F := F) arg7.view _ _ _
    isplitl [H6]
    · iexists _; isplitr; swap; · iexact H6
      ipureintro; exact store_whole (F := F) arg8.view _ _ _
    iexists _; isplitr; · ipureintro; exact harg9.read_unread _
    iexact HS0

end Cert.KernelIdeal.Hand

end
-- ==== Proof.FrameIdeal.Body.lean ====
/-
  The body obligation at a generic grid point. The point is in the first sweep (below 25) or in the second. In the
  first the body's run stores the point's 400 rows of the hidden layer into the carried buffer, which turns the buffer
  "before point t" into the buffer "before point t + 1"; the two result windows are idle there and are handed back as
  found. In the second the carried buffer is the whole hidden layer whatever it held at the start, the run leaves the
  point's rows of both heads in the result windows, and the carried buffer is unchanged.
-/
import proofs.«142056_g85864986181826_cont_sun_m_356_3_alg».proof.Proof.FrameIdeal.Data
import proofs.«142056_g85864986181826_cont_sun_m_356_3_alg».proof.Proof.FrameIdeal.RunFill
import proofs.«142056_g85864986181826_cont_sun_m_356_3_alg».proof.Proof.FrameIdeal.RunHeads

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Each window's current staging buffer at point `t`, as the pipeline passes it to the body. -/
abbrev ms0 (t : Fin cfg0.N) : Memref sig .tc .vmem S400x10000 .f32 := win0_0.stage (cfg0.slots t 0)
abbrev ms1 (t : Fin cfg0.N) : Memref sig .tc .vmem S10000x128 .f32 := win0_1.stage (cfg0.slots t 1)
abbrev ms2 (t : Fin cfg0.N) : Memref sig .tc .vmem S128x128 .f32 := win0_2.stage (cfg0.slots t 2)
abbrev ms3 (t : Fin cfg0.N) : Memref sig .tc .vmem S128x128 .f32 := win0_3.stage (cfg0.slots t 3)
abbrev ms4 (t : Fin cfg0.N) : Memref sig .tc .vmem S128x128 .f32 := win0_4.stage (cfg0.slots t 4)
abbrev ms5 (t : Fin cfg0.N) : Memref sig .tc .vmem S400x128 .f32 := win0_5.stage (cfg0.slots t 5)
abbrev ms6 (t : Fin cfg0.N) : Memref sig .tc .vmem S400x128 .f32 := win0_6.stage (cfg0.slots t 6)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The invariant at a point is the carried buffer's, by the proof data's definition. -/
theorem Phi_eq (c : Dev nD) (t : Fin (cfg0.N + 1)) : (dats m 0 c).Φ t = carried m c t.val := by dsimp only [dats]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [Phi_eq m c t.castSucc, Phi_eq m c t.succ]
  rw [show (t.castSucc : Fin (cfg0.N + 1)).val = t.val from rfl, show (t.succ : Fin (cfg0.N + 1)).val = t.val + 1 from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  have hN : t.val < 50 := lt_of_lt_of_eq t.isLt (show cfg0.N = 50 from N_0)
  by_cases h : t.val < 25
  · -- a point of the first sweep
    have hi5 : cfg0.idle 5 (grid0.coords t) = true := (idle5_iff t).mpr h
    have hi6 : cfg0.idle 6 (grid0.coords t) = true := (idle6_iff t).mpr h
    have hf5 : (cfg0.win 5).flush t = false := by
      cases hh : (cfg0.win 5).flush t
      · rfl
      · exact absurd ((flush5_iff t).mp hh) (by omega)
    have hf6 : (cfg0.win 6).flush t = false := by
      cases hh : (cfg0.win 6).flush t
      · rfl
      · exact absurd ((flush6_iff t).mp hh) (by omega)
    rw [(dats m 0 c).leavesExact_idle 5 t hi5 hf5, (dats m 0 c).leavesExact_idle 6 t hi6 hf6]
    unfold carried
    rw [min_eq_left (by omega : t.val ≤ 25), min_eq_left (by omega : t.val + 1 ≤ 25)]
    iintro ⟨⟨⟨%d0, HS⟩, Hg⟩, Ho, ⟨%e0, H0⟩, ⟨%e1, H1⟩, ⟨%e2, H2⟩, ⟨%e3, H3⟩, ⟨%e4, H4⟩, ⟨%d5, H5⟩, ⟨%d6, H6⟩⟩
    iapply ((runFill c (grid0.coords t) _ _ _ _ _ _ _ _ _ _ _ _ _ _ _ _ ((sweep1_iff t).mpr h) (fun hh => absurd ((sweep2_iff t).mp hh) (by omega))
      (iblk m c 0 t) (iblk m c 1 t) (iblk m c 2 t) (iblk m c 3 t) (iblk m c 4 t)
      ((dats m 0 c).before 5 t d5) ((dats m 0 c).before 6 t d6) (mix m c t.val d0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists d0
        unfold owns
        iexists _
        isplitr; swap
        · iexact HS
        ipureintro
        exact mix_step m c t h d0 carryRef.view _ ((Memref.isWhole_whole cc0_scratch0).read_unread _) (fill_off t h) _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    iexists d6; iexact H6
  · -- a point of the second sweep
    have h' : 25 ≤ t.val := by omega
    have hi5 : cfg0.idle 5 (grid0.coords t) = false := by
      cases hh : cfg0.idle 5 (grid0.coords t)
      · rfl
      · exact absurd ((idle5_iff t).mp hh) h
    have hi6 : cfg0.idle 6 (grid0.coords t) = false := by
      cases hh : cfg0.idle 6 (grid0.coords t)
      · rfl
      · exact absurd ((idle6_iff t).mp hh) h
    rw [show (dats m 0 c).leavesExact 5 t = owns (c : Thread nD τ) (ms5 t) fullShare ((dats m 0 c).after 5 t) from by
      unfold Dat.leavesExact; rw [hi5], after5]
    rw [show (dats m 0 c).leavesExact 6 t = owns (c : Thread nD τ) (ms6 t) fullShare ((dats m 0 c).after 6 t) from by
      unfold Dat.leavesExact; rw [hi6], after6]
    unfold carried
    rw [min_eq_right h', min_eq_right (by omega : 25 ≤ t.val + 1)]
    simp only [mix_full m c 25 (le_refl 25)]
    iintro ⟨⟨⟨%d0, HS⟩, Hg⟩, Ho, ⟨%e0, H0⟩, ⟨%e1, H1⟩, ⟨%e2, H2⟩, ⟨%e3, H3⟩, ⟨%e4, H4⟩, ⟨%d5, H5⟩, ⟨%d6, H6⟩⟩
    iapply ((runHeads c (grid0.coords t) _ _ _ _ _ _ _ _ _ _ _ _ _ _ _ _ (fun hh => h ((sweep1_iff t).mp hh)) ((sweep2_iff t).mpr h')
      (iblk m c 0 t) (iblk m c 1 t) (iblk m c 2 t) (iblk m c 3 t) (iblk m c 4 t) (hidden m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]
      · iexists d0; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.FrameIdeal.Launch.lean ====
/-
  The launch. Before the first point the kernel's own buffer holds anything: that is the carried invariant at point 0
  (nothing computed yet, over those contents). After the last point what it holds is forgotten again. Between them the
  body obligation carries it. So every weakly fair run of the program ends, with each windowed array at what the proof
  data computes for it and every other buffer as it was; in particular the argument arrays are unchanged.
-/
import proofs.«142056_g85864986181826_cont_sun_m_356_3_alg».proof.Proof.FrameIdeal.Body

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's own invariant, with the kernel's buffer as a memref owned at some contents. -/
theorem PhiA_eq (c : Dev nD) :
    (Pipeline.ΦA spec0 c : sProp 𝕄)
      = iprop(iprop((∃ d, owns (c : Thread nD τ) carryRef fullShare d)) ∗ (∃ r, prngReg c r)) := by
  unfold Pipeline.ΦA; rw [scopedRest0_eq]; simp only [carryRef, owns_whole]; try rfl

/-- Entering: nothing is computed yet. -/
theorem carried_in (c : Dev nD) : (Pipeline.ΦA spec0 c : sProp 𝕄) ⊢ (dats m 0 c).Φ 0 := by
  rw [PhiA_eq, Phi_eq]
  unfold carried
  rw [show ((0 : Fin (cfg0.N + 1)).val) = 0 from rfl, Nat.zero_min]
  iintro ⟨⟨%d, H⟩, Hg⟩
  isplitl [H]
  · iexists d
    rw [mix_zero]
    iexact H
  iexact Hg

/-- Leaving: the buffer's contents are forgotten. -/
theorem carried_out (c : Dev nD) : (dats m 0 c).Φ (Fin.last cfg0.N) ⊢ (Pipeline.ΦA spec0 c : sProp 𝕄) := by
  rw [PhiA_eq, Phi_eq]
  unfold carried
  iintro ⟨⟨%d0, H⟩, Hg⟩
  isplitl [H]
  · iexists _; iexact H
  iexact Hg

set_option backward.isDefEq.respectTransparency.types false in
/-- Every weakly fair execution of the program terminates, the windowed arrays at the proof data's contents and every
    other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := carried_in m) (hout := carried_out m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.Bridge.lean ====
/-
  One row block against the whole matrix. The kernel multiplies 400 rows of the adjacency matrix `A` at a time; the
  reference multiplies all 10000 at once. Row `400 b + p` of a product `A y` depends on row `400 b + p` of `A` only,
  which is row `p` of block `b`; so what the kernel computes from block `b`, read at row `p`, is what the reference
  computes, read at row `400 b + p`: for the hidden layer `relu((A x) W0ᵀ)` and for a head `(A h) Wᵀ` of any `h`.
  Both sides are the same sums of the same products in the same grouping, so nothing beyond reindexing is used.
-/
import proofs.«142056_g85864986181826_cont_sun_m_356_3_alg».proof.Proof.Gen.KernelIdeal.Skeleton
import proofs.«142056_g85864986181826_cont_sun_m_356_3_alg».proof.Proof.Gen.ReferenceIdeal.Read
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.TcCoe Idealize.ShloMosaic.ValueIdx

/-- Rows `[400 b, 400 b + 400)` of the adjacency matrix. -/
def rowBlock (adj : Vec Ideal Cert.KernelIdeal.S10000x10000 .f32) (b : ℕ) (hb : b < 25) : Vec Ideal Cert.KernelIdeal.S400x10000 .f32 :=
  fun j => adj (ix2 (⟨400 * b + (j 0).val, by have := idx2_lt0 j; omega⟩ : Fin 10000) (⟨(j 1).val, idx2_lt1 j⟩ : Fin 10000))

/-- The reference's head of a hidden layer `h`: `(A h) Wᵀ`. -/
def headOf (adj : Vec Ideal Cert.KernelIdeal.S10000x10000 .f32) (h : Vec Ideal Cert.KernelIdeal.S10000x128 .f32)
    (w : Vec Ideal Cert.KernelIdeal.S128x128 .f32) : Vec Ideal Cert.KernelIdeal.S10000x128 .f32 :=
  Host.dotGeneral (F := Ideal) (φ₁ := .f32) (φ₂ := .f32) Cert.ReferenceIdeal.dot_S10000x128_S128x128_S10000x128_1_0_0_1_n_n none
    (Host.dotGeneral (F := Ideal) (φ₁ := .f32) (φ₂ := .f32) Cert.ReferenceIdeal.dot_S10000x10000_S10000x128_S10000x128_1_0_0_1_n_n none adj h)
    (Cert.ReferenceIdeal.Read.val_main_v5 (F := Ideal) w)

/-! Where the two block products of the kernel read their operands: at result index `i` and contraction index `q`,
    the first reads the block at `(i 0, q)` and the right operand at `(q, i 1)`; the second, which contracts the second
    axis of both operands, reads the left at `(i 0, q)` and the weights at `(i 1, q)`. -/

private theorem lhs_d1_0 (i : Cert.KernelIdeal.S400x128.Idx) (q : Cert.KernelIdeal.dot_S400x10000_S10000x128_S400x128_1_0_0_1_n_n.contr.Idx) :
    (Cert.KernelIdeal.dot_S400x10000_S10000x128_S400x128_1_0_0_1_n_n.lhsIdx i q 0).val = (i 0).val := by
  unfold DotDims.lhsIdx
  rw [dif_neg (show ¬(0 : Fin Cert.KernelIdeal.S400x10000.rank) ∈ Cert.KernelIdeal.dot_S400x10000_S10000x128_S400x128_1_0_0_1_n_n.lhsBatch by decide), dif_pos (show (0 : Fin Cert.KernelIdeal.S400x10000.rank) ∈ Cert.KernelIdeal.dot_S400x10000_S10000x128_S400x128_1_0_0_1_n_n.lhsNonContracting by decide)]
  rfl
private theorem lhs_d1_1 (i : Cert.KernelIdeal.S400x128.Idx) (q : Cert.KernelIdeal.dot_S400x10000_S10000x128_S400x128_1_0_0_1_n_n.contr.Idx) :
    (Cert.KernelIdeal.dot_S400x10000_S10000x128_S400x128_1_0_0_1_n_n.lhsIdx i q 1).val = (q ⟨0, by decide⟩).val :=
  Cert.KernelIdeal.dot_S400x10000_S10000x128_S400x128_1_0_0_1_n_n.lhsIdx_val_of_single rfl i q
private theorem rhs_d1_0 (i : Cert.KernelIdeal.S400x128.Idx) (q : Cert.KernelIdeal.dot_S400x10000_S10000x128_S400x128_1_0_0_1_n_n.contr.Idx) :
    (Cert.KernelIdeal.dot_S400x10000_S10000x128_S400x128_1_0_0_1_n_n.rhsIdx i q 0).val = (q ⟨0, by decide⟩).val :=
  Cert.KernelIdeal.dot_S400x10000_S10000x128_S400x128_1_0_0_1_n_n.rhsIdx_val_of_single rfl i q
private theorem rhs_d1_1 (i : Cert.KernelIdeal.S400x128.Idx) (q : Cert.KernelIdeal.dot_S400x10000_S10000x128_S400x128_1_0_0_1_n_n.contr.Idx) :
    (Cert.KernelIdeal.dot_S400x10000_S10000x128_S400x128_1_0_0_1_n_n.rhsIdx i q 1).val = (i 1).val := by
  unfold DotDims.rhsIdx
  rw [dif_neg (show ¬(1 : Fin Cert.KernelIdeal.S10000x128.rank) ∈ Cert.KernelIdeal.dot_S400x10000_S10000x128_S400x128_1_0_0_1_n_n.rhsBatch by decide), dif_pos (show (1 : Fin Cert.KernelIdeal.S10000x128.rank) ∈ Cert.KernelIdeal.dot_S400x10000_S10000x128_S400x128_1_0_0_1_n_n.rhsNonContracting by decide)]
  rfl

private theorem lhs_d2_0 (i : Cert.KernelIdeal.S400x128.Idx) (q : Cert.KernelIdeal.dot_S400x128_S128x128_S400x128_1_1_0_0_n_n.contr.Idx) :
    (Cert.KernelIdeal.dot_S400x128_S128x128_S400x128_1_1_0_0_n_n.lhsIdx i q 0).val = (i 0).val := by
  unfold DotDims.lhsIdx
  rw [dif_neg (show ¬(0 : Fin Cert.KernelIdeal.S400x128.rank) ∈ Cert.KernelIdeal.dot_S400x128_S128x128_S400x128_1_1_0_0_n_n.lhsBatch by decide), dif_pos (show (0 : Fin Cert.KernelIdeal.S400x128.rank) ∈ Cert.KernelIdeal.dot_S400x128_S128x128_S400x128_1_1_0_0_n_n.lhsNonContracting by decide)]
  rfl
private theorem lhs_d2_1 (i : Cert.KernelIdeal.S400x128.Idx) (q : Cert.KernelIdeal.dot_S400x128_S128x128_S400x128_1_1_0_0_n_n.contr.Idx) :
    (Cert.KernelIdeal.dot_S400x128_S128x128_S400x128_1_1_0_0_n_n.lhsIdx i q 1).val = (q ⟨0, by decide⟩).val :=
  Cert.KernelIdeal.dot_S400x128_S128x128_S400x128_1_1_0_0_n_n.lhsIdx_val_of_single rfl i q
private theorem rhs_d2_0 (i : Cert.KernelIdeal.S400x128.Idx) (q : Cert.KernelIdeal.dot_S400x128_S128x128_S400x128_1_1_0_0_n_n.contr.Idx) :
    (Cert.KernelIdeal.dot_S400x128_S128x128_S400x128_1_1_0_0_n_n.rhsIdx i q 0).val = (i 1).val := by
  unfold DotDims.rhsIdx
  rw [dif_neg (show ¬(0 : Fin Cert.KernelIdeal.S128x128.rank) ∈ Cert.KernelIdeal.dot_S400x128_S128x128_S400x128_1_1_0_0_n_n.rhsBatch by decide), dif_pos (show (0 : Fin Cert.KernelIdeal.S128x128.rank) ∈ Cert.KernelIdeal.dot_S400x128_S128x128_S400x128_1_1_0_0_n_n.rhsNonContracting by decide)]
  rfl
private theorem rhs_d2_1 (i : Cert.KernelIdeal.S400x128.Idx) (q : Cert.KernelIdeal.dot_S400x128_S128x128_S400x128_1_1_0_0_n_n.contr.Idx) :
    (Cert.KernelIdeal.dot_S400x128_S128x128_S400x128_1_1_0_0_n_n.rhsIdx i q 1).val = (q ⟨0, by decide⟩).val :=
  Cert.KernelIdeal.dot_S400x128_S128x128_S400x128_1_1_0_0_n_n.rhsIdx_val_of_single rfl i q

/-- The first block product at `(p, k)`: row `p` of the block against column `k` of the right operand. -/
private theorem mm1_apply (a : Vec Ideal Cert.KernelIdeal.S400x10000 .f32) (h : Vec Ideal Cert.KernelIdeal.S10000x128 .f32)
    (p : Fin 400) (k : Fin 128) :
    Cert.KernelIdeal.Gen.k0_pay2 (F := Ideal) a h (ix2 p k) = ∑ l : Fin 10000, a (ix2 p l) * h (ix2 l k) := by
  unfold Cert.KernelIdeal.Gen.k0_pay2
  simp only [matmul]
  refine (Ideal.matmul_constant_zero_apply Cert.KernelIdeal.dot_S400x10000_S10000x128_S400x128_1_0_0_1_n_n none a h (ix2 p k)).trans ?_
  rw [← Equiv.sum_comp (contrEquiv1 Cert.KernelIdeal.dot_S400x10000_S10000x128_S400x128_1_0_0_1_n_n 10000 rfl rfl).symm]
  refine Finset.sum_congr rfl fun l _ => ?_
  have hl := contrEquiv1_symm_val Cert.KernelIdeal.dot_S400x10000_S10000x128_S400x128_1_0_0_1_n_n 10000 rfl rfl l
  have el : Cert.KernelIdeal.dot_S400x10000_S10000x128_S400x128_1_0_0_1_n_n.lhsIdx (ix2 p k) ((contrEquiv1 Cert.KernelIdeal.dot_S400x10000_S10000x128_S400x128_1_0_0_1_n_n 10000 rfl rfl).symm l) = ix2 p l := funext fun c => Fin.ext (by
    match c with
    | ⟨0, _⟩ => exact lhs_d1_0 _ _
    | ⟨1, _⟩ => exact (lhs_d1_1 _ _).trans hl)
  have er : Cert.KernelIdeal.dot_S400x10000_S10000x128_S400x128_1_0_0_1_n_n.rhsIdx (ix2 p k) ((contrEquiv1 Cert.KernelIdeal.dot_S400x10000_S10000x128_S400x128_1_0_0_1_n_n 10000 rfl rfl).symm l) = ix2 l k := funext fun c => Fin.ext (by
    match c with
    | ⟨0, _⟩ => exact (rhs_d1_0 _ _).trans hl
    | ⟨1, _⟩ => exact rhs_d1_1 _ _)
  rw [el, er]

/-- The second block product at `(p, q)`: row `p` of the left operand against ROW `q` of the weights (the product
    contracts the weights' second axis, so no transposed copy of them is formed). -/
private theorem mm2_apply (y : Vec Ideal Cert.KernelIdeal.S400x128 .f32) (w : Vec Ideal Cert.KernelIdeal.S128x128 .f32)
    (p : Fin 400) (q : Fin 128) :
    matmul (F := Ideal) (φ₁ := .f32) (φ₂ := .f32) Cert.KernelIdeal.dot_S400x128_S128x128_S400x128_1_1_0_0_n_n none y w (constant (F := Ideal) Cert.KernelIdeal.S400x128 .f32 0x00000000#32) (ix2 p q)
      = ∑ k : Fin 128, y (ix2 p k) * w (ix2 q k) := by
  simp only [matmul]
  refine (Ideal.matmul_constant_zero_apply Cert.KernelIdeal.dot_S400x128_S128x128_S400x128_1_1_0_0_n_n none y w (ix2 p q)).trans ?_
  rw [← Equiv.sum_comp (contrEquiv1 Cert.KernelIdeal.dot_S400x128_S128x128_S400x128_1_1_0_0_n_n 128 rfl rfl).symm]
  refine Finset.sum_congr rfl fun k _ => ?_
  have hk := contrEquiv1_symm_val Cert.KernelIdeal.dot_S400x128_S128x128_S400x128_1_1_0_0_n_n 128 rfl rfl k
  have el : Cert.KernelIdeal.dot_S400x128_S128x128_S400x128_1_1_0_0_n_n.lhsIdx (ix2 p q) ((contrEquiv1 Cert.KernelIdeal.dot_S400x128_S128x128_S400x128_1_1_0_0_n_n 128 rfl rfl).symm k) = ix2 p k := funext fun c => Fin.ext (by
    match c with
    | ⟨0, _⟩ => exact lhs_d2_0 _ _
    | ⟨1, _⟩ => exact (lhs_d2_1 _ _).trans hk)
  have er : Cert.KernelIdeal.dot_S400x128_S128x128_S400x128_1_1_0_0_n_n.rhsIdx (ix2 p q) ((contrEquiv1 Cert.KernelIdeal.dot_S400x128_S128x128_S400x128_1_1_0_0_n_n 128 rfl rfl).symm k) = ix2 q k := funext fun c => Fin.ext (by
    match c with
    | ⟨0, _⟩ => exact rhs_d2_0 _ _
    | ⟨1, _⟩ => exact (rhs_d2_1 _ _).trans hk)
  rw [el, er]

/-- The reference's product of the whole matrix with `h`, at `(r, k)`: row `r` of `A` against column `k` of `h`. -/
private theorem refAh_apply (adj : Vec Ideal Cert.KernelIdeal.S10000x10000 .f32) (h : Vec Ideal Cert.KernelIdeal.S10000x128 .f32)
    (r : Fin 10000) (k : Fin 128) :
    Host.dotGeneral (F := Ideal) (φ₁ := .f32) (φ₂ := .f32) Cert.ReferenceIdeal.dot_S10000x10000_S10000x128_S10000x128_1_0_0_1_n_n none adj h (ix2 r k)
      = ∑ l : Fin 10000, adj (ix2 r l) * h (ix2 l k) := by
  simp only [Host.dotGeneral]
  rw [Ideal.dotGeneral_apply, ← Equiv.sum_comp (contrEquiv1 Cert.ReferenceIdeal.dot_S10000x10000_S10000x128_S10000x128_1_0_0_1_n_n 10000 rfl rfl).symm]
  refine Finset.sum_congr rfl fun l _ => ?_
  have hl := contrEquiv1_symm_val Cert.ReferenceIdeal.dot_S10000x10000_S10000x128_S10000x128_1_0_0_1_n_n 10000 rfl rfl l
  have el : Cert.ReferenceIdeal.dot_S10000x10000_S10000x128_S10000x128_1_0_0_1_n_n.lhsIdx (ix2 r k) ((contrEquiv1 Cert.ReferenceIdeal.dot_S10000x10000_S10000x128_S10000x128_1_0_0_1_n_n 10000 rfl rfl).symm l) = ix2 r l := funext fun c => Fin.ext (by
    match c with
    | ⟨0, _⟩ => exact Cert.ReferenceIdeal.Read.lhs_main_v4_0 _ _
    | ⟨1, _⟩ => exact (Cert.ReferenceIdeal.Read.lhs_main_v4_1 _ _).trans hl)
  have er : Cert.ReferenceIdeal.dot_S10000x10000_S10000x128_S10000x128_1_0_0_1_n_n.rhsIdx (ix2 r k) ((contrEquiv1 Cert.ReferenceIdeal.dot_S10000x10000_S10000x128_S10000x128_1_0_0_1_n_n 10000 rfl rfl).symm l) = ix2 l k := funext fun c => Fin.ext (by
    match c with
    | ⟨0, _⟩ => exact (Cert.ReferenceIdeal.Read.rhs_main_v4_0 _ _).trans hl
    | ⟨1, _⟩ => exact Cert.ReferenceIdeal.Read.rhs_main_v4_1 _ _)
  rw [el, er]

/-- The reference's product with the transposed weights, at `(r, q)`: row `r` of `y` against ROW `q` of `w`. -/
private theorem refYW_apply (y : Vec Ideal Cert.KernelIdeal.S10000x128 .f32) (w : Vec Ideal Cert.KernelIdeal.S128x128 .f32)
    (r : Fin 10000) (q : Fin 128) :
    Host.dotGeneral (F := Ideal) (φ₁ := .f32) (φ₂ := .f32) Cert.ReferenceIdeal.dot_S10000x128_S128x128_S10000x128_1_0_0_1_n_n none y
        (Cert.ReferenceIdeal.Read.val_main_v5 (F := Ideal) w) (ix2 r q)
      = ∑ k : Fin 128, y (ix2 r k) * w (ix2 q k) := by
  simp only [Host.dotGeneral]
  rw [Ideal.dotGeneral_apply, ← Equiv.sum_comp (contrEquiv1 Cert.ReferenceIdeal.dot_S10000x128_S128x128_S10000x128_1_0_0_1_n_n 128 rfl rfl).symm]
  refine Finset.sum_congr rfl fun k _ => ?_
  have hk := contrEquiv1_symm_val Cert.ReferenceIdeal.dot_S10000x128_S128x128_S10000x128_1_0_0_1_n_n 128 rfl rfl k
  have el : Cert.ReferenceIdeal.dot_S10000x128_S128x128_S10000x128_1_0_0_1_n_n.lhsIdx (ix2 r q) ((contrEquiv1 Cert.ReferenceIdeal.dot_S10000x128_S128x128_S10000x128_1_0_0_1_n_n 128 rfl rfl).symm k) = ix2 r k := funext fun c => Fin.ext (by
    match c with
    | ⟨0, _⟩ => exact Cert.ReferenceIdeal.Read.lhs_main_v6_0 _ _
    | ⟨1, _⟩ => exact (Cert.ReferenceIdeal.Read.lhs_main_v6_1 _ _).trans hk)
  have er : Cert.ReferenceIdeal.dot_S10000x128_S128x128_S10000x128_1_0_0_1_n_n.rhsIdx (ix2 r q) ((contrEquiv1 Cert.ReferenceIdeal.dot_S10000x128_S128x128_S10000x128_1_0_0_1_n_n 128 rfl rfl).symm k) = ix2 k q := funext fun c => Fin.ext (by
    match c with
    | ⟨0, _⟩ => exact (Cert.ReferenceIdeal.Read.rhs_main_v6_0 _ _).trans hk
    | ⟨1, _⟩ => exact Cert.ReferenceIdeal.Read.rhs_main_v6_1 _ _)
  have et : Cert.ReferenceIdeal.Read.idx_main_v5 (ix2 k q) = ix2 q k := funext fun c => by
    match c with
    | ⟨0, _⟩ => rfl
    | ⟨1, _⟩ => rfl
  rw [el, er, Cert.ReferenceIdeal.Read.val_main_v5_apply, et]

/-- Row `p` of block `b` is row `400 b + p` of the matrix. -/
private theorem rowBlock_apply (adj : Vec Ideal Cert.KernelIdeal.S10000x10000 .f32) (b : ℕ) (hb : b < 25) (p : Fin 400) (l : Fin 10000) :
    rowBlock adj b hb (ix2 p l) = adj (ix2 (⟨400 * b + p.val, by omega⟩ : Fin 10000) l) := rfl

/-- The product of block `b` with `h`, at `(p, k)`, is the product of the whole matrix with `h` at `(400 b + p, k)`. -/
private theorem blockAh_eq (adj : Vec Ideal Cert.KernelIdeal.S10000x10000 .f32) (h : Vec Ideal Cert.KernelIdeal.S10000x128 .f32)
    (b : ℕ) (hb : b < 25) (p : Fin 400) (k : Fin 128) :
    Cert.KernelIdeal.Gen.k0_pay2 (F := Ideal) (rowBlock adj b hb) h (ix2 p k)
      = Host.dotGeneral (F := Ideal) (φ₁ := .f32) (φ₂ := .f32) Cert.ReferenceIdeal.dot_S10000x10000_S10000x128_S10000x128_1_0_0_1_n_n none adj h (ix2 (⟨400 * b + p.val, by omega⟩ : Fin 10000) k) := by
  rw [mm1_apply, refAh_apply]
  exact Finset.sum_congr rfl fun l _ => by rw [rowBlock_apply]

/-- What the second block product makes of the first, at `(p, q)`, is the reference's head at `(400 b + p, q)`: both are
    the sum over `k` of the sum over `l` of `A (400 b + p, l) * h (l, k)`, times `w (q, k)`. -/
private theorem head_block_eq (adj : Vec Ideal Cert.KernelIdeal.S10000x10000 .f32) (h : Vec Ideal Cert.KernelIdeal.S10000x128 .f32)
    (w : Vec Ideal Cert.KernelIdeal.S128x128 .f32) (b : ℕ) (hb : b < 25) (p : Fin 400) (q : Fin 128) :
    Cert.KernelIdeal.Gen.k0_pay3 (F := Ideal) (rowBlock adj b hb) h w (ix2 p q)
      = headOf adj h w (ix2 (⟨400 * b + p.val, by omega⟩ : Fin 10000) q) := by
  unfold Cert.KernelIdeal.Gen.k0_pay3 headOf
  refine (mm2_apply _ w p q).trans ?_
  rw [refYW_apply]
  exact Finset.sum_congr rfl fun k _ => by rw [blockAh_eq]

/-- The reference's first result is the head, with weights `W1`, of its hidden layer. -/
theorem out_eq (x : Vec Ideal Cert.KernelIdeal.S10000x128 .f32) (adj : Vec Ideal Cert.KernelIdeal.S10000x10000 .f32)
    (w0 w1 : Vec Ideal Cert.KernelIdeal.S128x128 .f32) :
    Cert.ReferenceIdeal.Read.val_main_v6 (F := Ideal) x adj w0 w1
      = headOf adj (Cert.ReferenceIdeal.Read.val_main_v3 (F := Ideal) x adj w0) w1 := by
  rfl

/-- The reference's second result is the head, with weights `Wss`, of the same hidden layer (the reference computes
    it a second time, by the same operations). -/
theorem xs_eq (x : Vec Ideal Cert.KernelIdeal.S10000x128 .f32) (adj : Vec Ideal Cert.KernelIdeal.S10000x10000 .f32)
    (w0 wss : Vec Ideal Cert.KernelIdeal.S128x128 .f32) :
    Cert.ReferenceIdeal.Read.val_main_v13 (F := Ideal) x adj w0 wss
      = headOf adj (Cert.ReferenceIdeal.Read.val_main_v3 (F := Ideal) x adj w0) wss := by
  rfl

/-- The hidden layer's rows computed from row block `b` are rows `400 b ..` of the reference's hidden layer. -/
theorem rows_eq (x : Vec Ideal Cert.KernelIdeal.S10000x128 .f32) (adj : Vec Ideal Cert.KernelIdeal.S10000x10000 .f32)
    (w0 : Vec Ideal Cert.KernelIdeal.S128x128 .f32) (b : ℕ) (hb : b < 25) (p : Fin 400) (q : Fin 128) :
    Cert.KernelIdeal.Gen.k0_pay1 (F := Ideal) (rowBlock adj b hb) x w0 (ix2 p q)
      = Cert.ReferenceIdeal.Read.val_main_v3 (F := Ideal) x adj w0 (ix2 (⟨400 * b + p.val, by omega⟩ : Fin 10000) q) := by
  -- before the maximum with zero the hidden layer is itself a head, of `x` with the weights `W0`
  have hk : Cert.KernelIdeal.Gen.k0_pay1 (F := Ideal) (rowBlock adj b hb) x w0 (ix2 p q)
      = max (Cert.KernelIdeal.Gen.k0_pay3 (F := Ideal) (rowBlock adj b hb) x w0 (ix2 p q)) (Ideal.ofBits .f32 0x00000000#32) := by
    unfold Cert.KernelIdeal.Gen.k0_pay1
    refine (congrFun (shapeCast_self _ _) (ix2 p q)).trans ?_
    rfl
  have hr : Cert.ReferenceIdeal.Read.val_main_v3 (F := Ideal) x adj w0 (ix2 (⟨400 * b + p.val, by omega⟩ : Fin 10000) q)
      = max (headOf adj x w0 (ix2 (⟨400 * b + p.val, by omega⟩ : Fin 10000) q)) (Ideal.ofBits .f32 0x00000000#32) := by
    rw [Cert.ReferenceIdeal.Read.val_main_v3_apply, Cert.ReferenceIdeal.Read.val_main_call0_v0_apply,
      Cert.ReferenceIdeal.Read.val_main_call0_cst_apply]
    rfl
  rw [hk, hr, head_block_eq]

/-- A head's rows computed from row block `b` and any `h` are rows `400 b ..` of the reference's head of `h`. -/
theorem head1_eq (adj : Vec Ideal Cert.KernelIdeal.S10000x10000 .f32) (h : Vec Ideal Cert.KernelIdeal.S10000x128 .f32)
    (w : Vec Ideal Cert.KernelIdeal.S128x128 .f32) (b : ℕ) (hb : b < 25) (p : Fin 400) (q : Fin 128) :
    Cert.KernelIdeal.Gen.k0_pay3 (F := Ideal) (rowBlock adj b hb) h w (ix2 p q)
      = headOf adj h w (ix2 (⟨400 * b + p.val, by omega⟩ : Fin 10000) q) := by
  exact head_block_eq adj h w b hb p q

/-- The same for the second head's payload (the same operations on the second weights). -/
theorem head2_eq (adj : Vec Ideal Cert.KernelIdeal.S10000x10000 .f32) (h : Vec Ideal Cert.KernelIdeal.S10000x128 .f32)
    (w : Vec Ideal Cert.KernelIdeal.S128x128 .f32) (b : ℕ) (hb : b < 25) (p : Fin 400) (q : Fin 128) :
    Cert.KernelIdeal.Gen.k0_pay4 (F := Ideal) (rowBlock adj b hb) h w (ix2 p q)
      = headOf adj h w (ix2 (⟨400 * b + p.val, by omega⟩ : Fin 10000) q) := by
  unfold Cert.KernelIdeal.Gen.k0_pay4 headOf
  refine (mm2_apply _ w p q).trans ?_
  rw [refYW_apply]
  exact Finset.sum_congr rfl fun k _ => by rw [blockAh_eq]

end Cert.Bridge

end
-- ==== Proof.Final.lean ====
/-
  From blocks to arrays, over the extended reals. The row block of `A` a point stages is rows `400 (t mod 25) ..` of
  the argument array, and the other inputs are staged whole; so the hidden layer the kernel carries is the reference's
  hidden layer, and what a second-sweep point `t` writes back into a result array is rows `400 (t - 25) ..` of the
  reference's result. The 25 blocks written back tile the 10000 rows, so each result array ends as the reference's.
-/
import proofs.«142056_g85864986181826_cont_sun_m_356_3_alg».proof.Proof.FrameIdeal.Data
import proofs.«142056_g85864986181826_cont_sun_m_356_3_alg».proof.Proof.Bridge

set_option maxRecDepth 16384

noncomputable section

namespace Cert.KernelIdeal.Final

open Cert.KernelIdeal Cert.KernelIdeal.Gen Cert.KernelIdeal.Hand Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The argument arrays on core `c`, as launched. -/
abbrev xA (c : Dev nD) : Vec Ideal S10000x128 .f32 := m ((c : Thread nD τ).loc main_arg0)
abbrev adjA (c : Dev nD) : Vec Ideal S10000x10000 .f32 := m ((c : Thread nD τ).loc main_arg1)
abbrev w0A (c : Dev nD) : Vec Ideal S128x128 .f32 := m ((c : Thread nD τ).loc main_arg2)
abbrev w1A (c : Dev nD) : Vec Ideal S128x128 .f32 := m ((c : Thread nD τ).loc main_arg3)
abbrev wssA (c : Dev nD) : Vec Ideal S128x128 .f32 := m ((c : Thread nD τ).loc main_arg4)

/-- The block of `A` staged at point `t` is its row block `t mod 25`. -/
theorem blk_adj (c : Dev nD) (t : Fin cfg0.N) :
    iblk m c 0 t = Cert.Bridge.rowBlock (adjA m c) (t.val % 25) (Nat.mod_lt _ (by decide)) := by
  funext y
  show V m c main_arg1 (((cfg0.win 0).blk t).view.emb y) = adjA m c _
  refine congrArg (m ((c : Thread nD τ).loc main_arg1)) (funext fun a => Fin.ext ?_)
  match a with
  | ⟨0, _⟩ =>
    show win0_0.index t (0 : Fin 2) * 400 + 1 * (y 0).val = 400 * (t.val % 25) + (y 0).val
    rw [(index0 t).1]; omega
  | ⟨1, _⟩ =>
    show win0_0.index t (1 : Fin 2) * 10000 + 1 * (y 1).val = (y 1).val
    rw [(index0 t).2]; omega

/-- The other inputs are staged whole at every point. -/
theorem blk_x (c : Dev nD) (t : Fin cfg0.N) : iblk m c 1 t = xA m c := by
  funext y
  show V m c main_arg0 (((cfg0.win 1).blk t).view.emb y) = xA m c y
  refine congrArg (m ((c : Thread nD τ).loc main_arg0)) (funext fun a => Fin.ext ?_)
  match a with
  | ⟨0, _⟩ =>
    show win0_1.index t (0 : Fin 2) * 10000 + 1 * (y 0).val = (y 0).val
    rw [(index1 t).1]; omega
  | ⟨1, _⟩ =>
    show win0_1.index t (1 : Fin 2) * 128 + 1 * (y 1).val = (y 1).val
    rw [(index1 t).2]; omega
theorem blk_w0 (c : Dev nD) (t : Fin cfg0.N) : iblk m c 2 t = w0A m c := by
  funext y
  show V m c main_arg2 (((cfg0.win 2).blk t).view.emb y) = w0A m c y
  refine congrArg (m ((c : Thread nD τ).loc main_arg2)) (funext fun a => Fin.ext ?_)
  match a with
  | ⟨0, _⟩ =>
    show win0_2.index t (0 : Fin 2) * 128 + 1 * (y 0).val = (y 0).val
    rw [(index2 t).1]; omega
  | ⟨1, _⟩ =>
    show win0_2.index t (1 : Fin 2) * 128 + 1 * (y 1).val = (y 1).val
    rw [(index2 t).2]; omega
theorem blk_w1 (c : Dev nD) (t : Fin cfg0.N) : iblk m c 3 t = w1A m c := by
  funext y
  show V m c main_arg3 (((cfg0.win 3).blk t).view.emb y) = w1A m c y
  refine congrArg (m ((c : Thread nD τ).loc main_arg3)) (funext fun a => Fin.ext ?_)
  match a with
  | ⟨0, _⟩ =>
    show win0_3.index t (0 : Fin 2) * 128 + 1 * (y 0).val = (y 0).val
    rw [(index3 t).1]; omega
  | ⟨1, _⟩ =>
    show win0_3.index t (1 : Fin 2) * 128 + 1 * (y 1).val = (y 1).val
    rw [(index3 t).2]; omega
theorem blk_wss (c : Dev nD) (t : Fin cfg0.N) : iblk m c 4 t = wssA m c := by
  funext y
  show V m c main_arg4 (((cfg0.win 4).blk t).view.emb y) = wssA m c y
  refine congrArg (m ((c : Thread nD τ).loc main_arg4)) (funext fun a => Fin.ext ?_)
  match a with
  | ⟨0, _⟩ =>
    show win0_4.index t (0 : Fin 2) * 128 + 1 * (y 0).val = (y 0).val
    rw [(index4 t).1]; omega
  | ⟨1, _⟩ =>
    show win0_4.index t (1 : Fin 2) * 128 + 1 * (y 1).val = (y 1).val
    rw [(index4 t).2]; omega

/-- The carried hidden layer is the reference's. -/
theorem hidden_eq (c : Dev nD) :
    hidden m c = Cert.ReferenceIdeal.Read.val_main_v3 (F := Ideal) (xA m c) (adjA m c) (w0A m c) := by
  funext j
  have hj0 : (j 0).val < 10000 := idx2_lt0 j
  unfold Cert.KernelIdeal.Hand.hidden
  show k0_pay1 (iblk m c 0 (fillPoint (j 0).val (idx2_lt0 j))) (iblk m c 1 (fillPoint (j 0).val (idx2_lt0 j)))
      (iblk m c 2 (fillPoint (j 0).val (idx2_lt0 j)))
      (ix2 (⟨(j 0).val % 400, Nat.mod_lt _ (by decide)⟩ : Fin 400) (⟨(j 1).val, idx2_lt1 j⟩ : Fin 128)) = _
  rw [blk_adj, blk_x, blk_w0, Cert.Bridge.rows_eq]
  refine congrArg _ (funext fun a => Fin.ext ?_)
  match a with
  | ⟨0, _⟩ =>
    show 400 * ((j 0).val / 400 % 25) + (j 0).val % 400 = (j 0).val
    omega
  | ⟨1, _⟩ => rfl

/-- What a second-sweep point writes back into the first result array is its block of the reference's first result. -/
theorem flushed5_eq (c : Dev nD) (t : Fin cfg0.N) (hf : (cfg0.win 5).flush t = true) :
    (dats m 0 c).flushed 5 t = ((cfg0.win 5).blk t).view.read (Elt Ideal)
      (Cert.ReferenceIdeal.Read.val_main_v6 (F := Ideal) (xA m c) (adjA m c) (w0A m c) (w1A m c)) := by
  have ht : 25 ≤ t.val := (flush5_iff t).mp hf
  have hN : t.val < 50 := lt_of_lt_of_eq t.isLt N_0
  show (cfg0.win 5).cut (grid0.coords t) ((dats m 0 c).after 5 t) = _
  rw [after5]
  funext j
  obtain ⟨p, q, rfl⟩ : ∃ (p : Fin 400) (q : Fin 128), j = ix2 p q := ⟨j 0, j 1, eq_ix2 j⟩
  show k0_pay3 (iblk m c 0 t) (hidden m c) (iblk m c 3 t) (ix2 p q)
    = Cert.ReferenceIdeal.Read.val_main_v6 (F := Ideal) (xA m c) (adjA m c) (w0A m c) (w1A m c) (((cfg0.win 5).blk t).view.emb (ix2 p q))
  rw [blk_adj, blk_w1, hidden_eq, Cert.Bridge.head1_eq, Cert.Bridge.out_eq]
  refine congrArg _ (funext fun a => Fin.ext ?_)
  match a with
  | ⟨0, _⟩ =>
    show 400 * (t.val % 25) + p.val = win0_5.index t (0 : Fin 2) * 400 + 1 * p.val
    rw [(index5 t ht).1]; omega
  | ⟨1, _⟩ =>
    show q.val = win0_5.index t (1 : Fin 2) * 128 + 1 * q.val
    rw [(index5 t ht).2]; omega

/-- The same for the second result array. -/
theorem flushed6_eq (c : Dev nD) (t : Fin cfg0.N) (hf : (cfg0.win 6).flush t = true) :
    (dats m 0 c).flushed 6 t = ((cfg0.win 6).blk t).view.read (Elt Ideal)
      (Cert.ReferenceIdeal.Read.val_main_v13 (F := Ideal) (xA m c) (adjA m c) (w0A m c) (wssA m c)) := by
  have ht : 25 ≤ t.val := (flush6_iff t).mp hf
  have hN : t.val < 50 := lt_of_lt_of_eq t.isLt N_0
  show (cfg0.win 6).cut (grid0.coords t) ((dats m 0 c).after 6 t) = _
  rw [after6]
  funext j
  obtain ⟨p, q, rfl⟩ : ∃ (p : Fin 400) (q : Fin 128), j = ix2 p q := ⟨j 0, j 1, eq_ix2 j⟩
  show k0_pay4 (iblk m c 0 t) (hidden m c) (iblk m c 4 t) (ix2 p q)
    = Cert.ReferenceIdeal.Read.val_main_v13 (F := Ideal) (xA m c) (adjA m c) (w0A m c) (wssA m c) (((cfg0.win 6).blk t).view.emb (ix2 p q))
  rw [blk_adj, blk_wss, hidden_eq, Cert.Bridge.head2_eq, Cert.Bridge.xs_eq]
  refine congrArg _ (funext fun a => Fin.ext ?_)
  match a with
  | ⟨0, _⟩ =>
    show 400 * (t.val % 25) + p.val = win0_6.index t (0 : Fin 2) * 400 + 1 * p.val
    rw [(index6 t ht).1]; omega
  | ⟨1, _⟩ =>
    show q.val = win0_6.index t (1 : Fin 2) * 128 + 1 * q.val
    rw [(index6 t ht).2]; omega

/-- An index of a result array lies in the block point `t` writes back exactly when each coordinate lies in the block's
    range on its axis. -/
private theorem mem_blk5 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v0_0).slice (win0_5.rect t)).set ↔ _
  rw [View.set_slice_whole, Rect.mem_set_unit]
  exact Iff.rfl
private theorem mem_blk6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v0_1).slice (win0_6.rect t)).set ↔ _
  rw [View.set_slice_whole, Rect.mem_set_unit]
  exact Iff.rfl

/-- Every row of a result array lies in the block some second-sweep point writes back: row `r` in point `25 + r / 400`'s. -/
theorem cover5 (i : S10000x128.Idx) : ∃ t : Fin cfg0.N, (cfg0.win 5).flush t = true ∧ i ∈ ((cfg0.win 5).blk t).view.set := by
  have hi0 : (i 0).val < 10000 := idx2_lt0 i
  have hi1 : (i 1).val < 128 := idx2_lt1 i
  have hlt : 25 + (i 0).val / 400 < cfg0.N := by show 25 + (i 0).val / 400 < grid0.N; rw [N_0]; omega
  have ht : 25 ≤ (⟨25 + (i 0).val / 400, hlt⟩ : Fin cfg0.N).val := Nat.le_add_right _ _
  refine ⟨⟨25 + (i 0).val / 400, hlt⟩, (flush5_iff _).mpr ht, ?_⟩
  rw [mem_blk5]
  intro a
  match a with
  | ⟨0, _⟩ =>
    show win0_5.index ⟨25 + (i 0).val / 400, hlt⟩ (0 : Fin 2) * 400 ≤ (i 0).val
      ∧ (i 0).val < win0_5.index ⟨25 + (i 0).val / 400, hlt⟩ (0 : Fin 2) * 400 + 400
    rw [(index5 _ ht).1]
    show (25 + (i 0).val / 400 - 25) * 400 ≤ (i 0).val ∧ (i 0).val < (25 + (i 0).val / 400 - 25) * 400 + 400
    omega
  | ⟨1, _⟩ =>
    show win0_5.index ⟨25 + (i 0).val / 400, hlt⟩ (1 : Fin 2) * 128 ≤ (i 1).val
      ∧ (i 1).val < win0_5.index ⟨25 + (i 0).val / 400, hlt⟩ (1 : Fin 2) * 128 + 128
    rw [(index5 _ ht).2]; omega
theorem cover6 (i : S10000x128.Idx) : ∃ t : Fin cfg0.N, (cfg0.win 6).flush t = true ∧ i ∈ ((cfg0.win 6).blk t).view.set := by
  have hi0 : (i 0).val < 10000 := idx2_lt0 i
  have hi1 : (i 1).val < 128 := idx2_lt1 i
  have hlt : 25 + (i 0).val / 400 < cfg0.N := by show 25 + (i 0).val / 400 < grid0.N; rw [N_0]; omega
  have ht : 25 ≤ (⟨25 + (i 0).val / 400, hlt⟩ : Fin cfg0.N).val := Nat.le_add_right _ _
  refine ⟨⟨25 + (i 0).val / 400, hlt⟩, (flush6_iff _).mpr ht, ?_⟩
  rw [mem_blk6]
  intro a
  match a with
  | ⟨0, _⟩ =>
    show win0_6.index ⟨25 + (i 0).val / 400, hlt⟩ (0 : Fin 2) * 400 ≤ (i 0).val
      ∧ (i 0).val < win0_6.index ⟨25 + (i 0).val / 400, hlt⟩ (0 : Fin 2) * 400 + 400
    rw [(index6 _ ht).1]
    show (25 + (i 0).val / 400 - 25) * 400 ≤ (i 0).val ∧ (i 0).val < (25 + (i 0).val / 400 - 25) * 400 + 400
    omega
  | ⟨1, _⟩ =>
    show win0_6.index ⟨25 + (i 0).val / 400, hlt⟩ (1 : Fin 2) * 128 ≤ (i 1).val
      ∧ (i 1).val < win0_6.index ⟨25 + (i 0).val / 400, hlt⟩ (1 : Fin 2) * 128 + 128
    rw [(index6 _ ht).2]; omega

/-- The first result array after the run is the reference's first result. -/
theorem final5 (c : Dev nD) :
    (dats m 0 c).arrAt 5 cfg0.N = Cert.ReferenceIdeal.Read.val_main_v6 (F := Ideal) (xA m c) (adjA m c) (w0A m c) (w1A m c) :=
  (dats m 0 c).arrAt_eq_of_cover 5 _ (fun t hf => flushed5_eq m c t hf) cover5

/-- The second result array after the run is the reference's second result. -/
theorem final6 (c : Dev nD) :
    (dats m 0 c).arrAt 6 cfg0.N = Cert.ReferenceIdeal.Read.val_main_v13 (F := Ideal) (xA m c) (adjA m c) (w0A m c) (wssA m c) :=
  (dats m 0 c).arrAt_eq_of_cover 6 _ (fun t hf => flushed6_eq m c t hf) cover6

end Cert.KernelIdeal.Final

end
-- ==== Proof.lean ====
/-
  A two-layer graph network with a dense adjacency matrix `A` (10000 x 10000) and two heads,

      h = relu((A x) W0ᵀ),   out = (A h) W1ᵀ,   xs = (A h) Wssᵀ,

  computed by one fused call on a grid of 2 x 25 points against the plain reference, which computes the hidden layer
  twice by the same operations. The first sweep of 25 points computes `h`, 400 rows per point, into a buffer the call
  keeps between points; the second sweep computes both heads, 400 rows per point, from the whole of `h`. Over the
  extended reals both programs are the same sums of the same products in the same grouping: a row of a product `A y`
  depends on that row of `A` only, so cutting `A` into row blocks changes nothing, and the kernel's contraction against
  the rows of a weight matrix is the reference's product with its transpose. No law that fails at infinities is used,
  so the precondition (finite inputs) is never opened.

  The three programs run and leave their arguments unchanged: the kernel (read at words and at extended reals) by the
  pipeline's launch with the carried buffer tracked point by point, the reference by its run. The idealization rewrote
  nothing, so `preserves` is trivial. For the value claim the kernel's result arrays are read off the launch's post:
  each second-sweep point writes back its block of the reference's result, and the 25 blocks tile the array.
-/
import proofs.«142056_g85864986181826_cont_sun_m_356_3_alg».proof.Defs
import proofs.«142056_g85864986181826_cont_sun_m_356_3_alg».proof.Proof.Gen.Kernel
import proofs.«142056_g85864986181826_cont_sun_m_356_3_alg».proof.Proof.Gen.KernelIdeal
import proofs.«142056_g85864986181826_cont_sun_m_356_3_alg».proof.Proof.Gen.ReferenceIdeal
import proofs.«142056_g85864986181826_cont_sun_m_356_3_alg».proof.Proof.Gen.ReferenceIdeal.Run
import proofs.«142056_g85864986181826_cont_sun_m_356_3_alg».proof.Proof.Gen.ReferenceIdeal.Read
import proofs.«142056_g85864986181826_cont_sun_m_356_3_alg».proof.Proof.Gen.Pre_finite_inputs
import proofs.«142056_g85864986181826_cont_sun_m_356_3_alg».proof.Proof.FrameBits.Launch
import proofs.«142056_g85864986181826_cont_sun_m_356_3_alg».proof.Proof.FrameIdeal.Launch
import proofs.«142056_g85864986181826_cont_sun_m_356_3_alg».proof.Proof.Final
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame (F := Bits) m ρ

/-- The kernel read at extended reals runs and leaves its arguments unchanged. -/
theorem frame_ki : Cert.frame_KernelIdeal := fun m ρ _ => Cert.KernelIdeal.Hand.frame (F := Ideal) m ρ

/-- The reference runs and leaves its arguments unchanged: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

section Named

open Cert.KernelIdeal Cert.KernelIdeal.Gen Cert.KernelIdeal.Hand Cert.KernelIdeal.Final

variable (m : (ℓ : Loc nD τ sig) → Buf (Elt Ideal) ℓ) (ρ : Dev nD → PrngReg)

/-- The kernel's run with both result arrays named: each ends as the reference's result of the argument arrays. -/
theorem kernel_run : θ_run defs (onTc (τ := τ) (main (F := Ideal))) ⟨m, fun _ => 0, ρ⟩ (fun r => ∀ c : Dev nD,
      r.2.mem ((c.tc : Thread nD τ).loc main_v0_0) = Cert.ReferenceIdeal.Read.val_main_v6 (F := Ideal) (xA m c) (adjA m c) (w0A m c) (w1A m c)
      ∧ r.2.mem ((c.tc : Thread nD τ).loc main_v0_1) = Cert.ReferenceIdeal.Read.val_main_v13 (F := Ideal) (xA m c) (adjA m c) (w0A m c) (wssA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final5 m c), ((h c).1 6).trans (final6 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main (F := Ideal) m ρ)

end Named

/-- From memories agreeing on the arguments both programs end with the same two results: the kernel's arrays are the
    reference's stages of the kernel's arguments, and the reference's run gives the same stages of its own. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1]
    exact Cert.ReferenceIdeal.Read.val_main_v6_eq _ _ _ _
  · rw [(hagree c).1, (hagree c).2.1, (hagree c).2.2.1, (hagree c).2.2.2.2]
    exact Cert.ReferenceIdeal.Read.val_main_v13_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
